-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S64x128 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S64x128 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 94
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S128x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S128x64, .f32⟩
  | .hbm, ⟨92, _⟩ => ⟨S1x64, .f32⟩
  | .hbm, ⟨93, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S64x128, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S128x128, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000, .i32⟩
  | 77 => ⟨S1700000, .i32⟩
  | 78 => ⟨S1700000, .i32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S128x128, .f32⟩
  | 116 => ⟨S100000x128, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x128, .f32⟩
  | 126 => ⟨S1700000x1, .f32⟩
  | 127 => ⟨S1700000x128, .f32⟩
  | _ => ⟨S100000x128, .f32⟩

abbrev hbmTy0_1 (i : Nat) : BufTy := match i % 128 with
  | 0 => ⟨S1700000x128, .f32⟩
  | 1 => ⟨S_, .f32⟩
  | 2 => ⟨S100000x128, .f32⟩
  | 3 => ⟨S1700000x1, .i32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S128x64, .f32⟩
  | 13 => ⟨S100000x64, .f32⟩
  | 14 => ⟨S1x64, .f32⟩
  | 15 => ⟨S100000x64, .f32⟩
  | 16 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_15 : Ref sig .tc := ⟨.hbm, 92, rfl⟩
abbrev main_call1_v0 : Ref sig .tc := ⟨.hbm, 93, rfl⟩
abbrev main_call1_v1 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_c_19 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_23 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.BlockProducts.lean ====
/-
  The three matrix products of the kernel's bodies, read at an entry. Each body rounds a 5000-row block of activations
  and a whole weight matrix to bf16 (the identity on extended reals), multiplies them into a zero accumulator and stores
  the block; entry (p, q) of that product is the sum over k < 128 of (row p of the block)ₖ · (column q of the weights)ₖ.
-/
import proofs.«137837_j52158082842768_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Products

open Cert.KernelIdeal Cert.KernelIdeal.Gen Idealize.ShloMosaic Idealize.ShloMosaic.TcCoe

/-- Position k of row (i 0) of a 5000 × 128 block. -/
abbrev rowAt (i : S5000x128.Idx) (k : Fin 128) : S5000x128.Idx := fun a => match a with
  | ⟨0, _⟩ => ⟨(i 0).val, (i 0).isLt⟩
  | ⟨1, _⟩ => ⟨k.val, k.isLt⟩
/-- Position k of column (i 1) of a 128 × 128 weight matrix. -/
abbrev colAt (i : S5000x128.Idx) (k : Fin 128) : S128x128.Idx := fun a => match a with
  | ⟨0, _⟩ => ⟨k.val, k.isLt⟩
  | ⟨1, _⟩ => ⟨(i 1).val, (i 1).isLt⟩
/-- Position k of row (i 0) of a 5000 × 128 block, for an entry of a 5000 × 64 product. -/
abbrev rowAtH (i : S5000x64.Idx) (k : Fin 128) : S5000x128.Idx := fun a => match a with
  | ⟨0, _⟩ => ⟨(i 0).val, (i 0).isLt⟩
  | ⟨1, _⟩ => ⟨k.val, k.isLt⟩
/-- Position k of column (i 1) of the 128 × 64 head matrix. -/
abbrev colAtH (i : S5000x64.Idx) (k : Fin 128) : S128x64.Idx := fun a => match a with
  | ⟨0, _⟩ => ⟨k.val, k.isLt⟩
  | ⟨1, _⟩ => ⟨(i 1).val, (i 1).isLt⟩

/-! ## Which operand entries a product entry reads, axis by axis -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhsH_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsH_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsH_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsH_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The products at an entry -/

/-- Entry `i` of a block product into a zero accumulator: the row of the left block against the column of the right one. -/
theorem blockProductA (l : FVec Ideal S5000x128 .bf16) (r : FVec Ideal S128x128 .bf16) (i : S5000x128.Idx) :
    matmul dot_S5000x128_S128x128_S5000x128_1_0_0_1_n_n none l r (constant S5000x128 .f32 0x00000000#32) i = ∑ k : Fin 128, l (rowAt i k) * r (colAt i k) := by
  show FloatOps.matmul dot_S5000x128_S128x128_S5000x128_1_0_0_1_n_n none l r (constant S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx i ((ValueIdx.contrEquiv1 dot_S5000x128_S128x128_S5000x128_1_0_0_1_n_n 128 rfl rfl).symm k) = colAt i k := funext fun a => Fin.ext (by
    match a with
    | ⟨0, _⟩ => exact (rhsA_0 _ _).trans hk
    | ⟨1, _⟩ => exact rhsA_1 _ _)
  rw [el, er]

/-- Entry `i` of a block product into a zero accumulator: the row of the left block against the column of the right one. -/
theorem blockProductH (l : FVec Ideal S5000x128 .bf16) (r : FVec Ideal S128x64 .bf16) (i : S5000x64.Idx) :
    matmul dot_S5000x128_S128x64_S5000x64_1_0_0_1_n_n none l r (constant S5000x64 .f32 0x00000000#32) i = ∑ k : Fin 128, l (rowAtH i k) * r (colAtH i k) := by
  show FloatOps.matmul dot_S5000x128_S128x64_S5000x64_1_0_0_1_n_n none l r (constant S5000x64 .f32 0x00000000#32) i = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = rowAtH i k := funext fun a => Fin.ext (by
    match a with
    | ⟨0, _⟩ => exact lhsH_0 _ _
    | ⟨1, _⟩ => exact (lhsH_1 _ _).trans hk)
  have er : dot_S5000x128_S128x64_S5000x64_1_0_0_1_n_n.rhsIdx i ((ValueIdx.contrEquiv1 dot_S5000x128_S128x64_S5000x64_1_0_0_1_n_n 128 rfl rfl).symm k) = colAtH i k := funext fun a => Fin.ext (by
    match a with
    | ⟨0, _⟩ => exact (rhsH_0 _ _).trans hk
    | ⟨1, _⟩ => exact rhsH_1 _ _)
  rw [el, er]

/-! ## The bodies' stored values at an entry -/

/-- The first layer's linear body stores the block product. -/
theorem linear1_apply (x : Vec Ideal S5000x128 .f32) (w : Vec Ideal S128x128 .f32) (i : S5000x128.Idx) :
    k0_pay1 (F := Ideal) x w i = ∑ k : Fin 128, x (rowAt i k) * w (colAt i k) := by
  unfold k0_pay1
  rw [blockProductA]
  simp only [ValueIdx.truncf_apply, shapeCast_self]

/-- The second layer's linear body stores the block product. -/
theorem linear2_apply (x : Vec Ideal S5000x128 .f32) (w : Vec Ideal S128x128 .f32) (i : S5000x128.Idx) :
    k2_pay1 (F := Ideal) x w i = ∑ k : Fin 128, x (rowAt i k) * w (colAt i k) := by
  unfold k2_pay1
  rw [blockProductA]
  simp only [ValueIdx.truncf_apply, shapeCast_self]

end Cert.KernelIdeal.Products

end
-- ==== Proof.LinearRegions.lean ====
/-
  The two linear regions (the first and the third pallas_call): twenty grid points, point t multiplying rows
  5000 t … 5000 t + 4999 of the activations by the whole 128 × 128 weight matrix and writing that row block of the result.
  So after the region the result array is the full product: entry (r, j) = Σₖ x[r, k] · w[k, j].
-/
import proofs.«137837_j52158082842768_1_alg».proof.Proof.Gen.KernelIdeal.Frame
import proofs.«137837_j52158082842768_1_alg».proof.Proof.BlockProducts
import Idealize.ShloMosaic.Lib.Pipeline.Value

set_option maxRecDepth 16384

noncomputable section

namespace Cert.KernelIdeal.Linear

open Idealize.ShloMosaic Idealize.ShloMosaic.TcCoe Idealize.SL.Sem
open Idealize.ShloMosaic.Pipeline (Dat)
open Cert.KernelIdeal Cert.KernelIdeal.Gen Cert.KernelIdeal.Products

/-- Position k of row (i 0) of the 100000 × 128 activations. -/
abbrev rowOf (i : S100000x128.Idx) (k : Fin 128) : S100000x128.Idx := fun a => match a with
  | ⟨0, _⟩ => ⟨(i 0).val, (i 0).isLt⟩
  | ⟨1, _⟩ => ⟨k.val, k.isLt⟩
/-- Position k of column (i 1) of a 128 × 128 weight matrix. -/
abbrev colOf (i : S100000x128.Idx) (k : Fin 128) : S128x128.Idx := fun a => match a with
  | ⟨0, _⟩ => ⟨k.val, k.isLt⟩
  | ⟨1, _⟩ => ⟨(i 1).val, (i 1).isLt⟩

/-- The product x · w of the activations with a weight matrix, entry by entry. -/
def rowsTimes (x : S100000x128.Idx → Elt Ideal .f32) (w : S128x128.Idx → Elt Ideal .f32) : S100000x128.Idx → Elt Ideal .f32 :=
  fun i => ∑ k : Fin 128, x (rowOf i k) * w (colOf i k)

theorem hz : (![0, 0] : Fin 2 → Nat) = fun _ => 0 := funext fun a => by fin_cases a <;> rfl

variable (V : (c : Dev nD) → (b : Ref sig .tc) → Buf (Elt Ideal) ((c : Thread nD τ).loc b))

/-- The contents of `main_arg0` as the region finds them, at the array's literal type. -/
abbrev at_main_arg0 (c : Dev nD) : S100000x128.Idx → Elt Ideal .f32 := V c main_arg0
/-- The contents of `main_v32` as the region finds them, at the array's literal type. -/
abbrev at_main_v32 (c : Dev nD) : S128x128.Idx → Elt Ideal .f32 := V c main_v32
/-- The contents of `main_v48` as the region finds them, at the array's literal type. -/
abbrev at_main_v48 (c : Dev nD) : S100000x128.Idx → Elt Ideal .f32 := V c main_v48
/-- The contents of `main_v49` as the region finds them, at the array's literal type. -/
abbrev at_main_v49 (c : Dev nD) : S128x128.Idx → Elt Ideal .f32 := V c main_v49

/-! ## Region 0 -/

/-- Where each window's block sits at a grid point: the activations' and the result's at row block t, the weights' whole. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed0_eq (c : Dev nD) (t : Fin cfg0.N) :
    (dat0 V c).flushed 2 t = ((cfg0.win 2).blk t).view.read (Elt Ideal) (rowsTimes (V c main_arg0) (V c main_v32)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := blocks0 t
  funext j
  refine (linear1_apply (iblk0 V c 0 t) (iblk0 V c 1 t) j).trans ?_
  show ∑ k : Fin 128, at_main_arg0 V c (((cfg0.win 0).blk t).view.emb (rowAt j k)) * at_main_v32 V c (((cfg0.win 1).blk t).view.emb (colAt j k))
    = ∑ k : Fin 128, at_main_arg0 V c (rowOf (((cfg0.win 2).blk t).view.emb j) k) * at_main_v32 V c (colOf (((cfg0.win 2).blk t).view.emb j) k)
  refine Finset.sum_congr rfl fun k _ => ?_
  have hx : ((cfg0.win 0).blk t).view.emb (rowAt j k) = rowOf (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : ((cfg0.win 1).blk t).view.emb (colAt j k) = colOf (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An entry of the result array is in point t's block iff its row is among rows 5000 t … 5000 t + 4999. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- The twenty row blocks tile the result array: row r lies in block r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := blocks0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 its result array holds the product of the activations and the weights it was entered with. -/
theorem result0 (c : Dev nD) : (dat0 V c).arrAt 2 cfg0.N = rowsTimes (V c main_arg0) (V c main_v32) :=
  (dat0 V c).arrAt_eq_of_cover 2 (rowsTimes (V c main_arg0) (V c main_v32)) (fun t _ => flushed0_eq V c t) (covered0)

/-! ## Region 2 -/

/-- Where each window's block sits at a grid point: the activations' and the result's at row block t, the weights' whole. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region finds them. -/
theorem flushed2_eq (c : Dev nD) (t : Fin cfg2.N) :
    (dat2 V c).flushed 2 t = ((cfg2.win 2).blk t).view.read (Elt Ideal) (rowsTimes (V c main_v48) (V c main_v49)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := blocks2 t
  funext j
  refine (linear2_apply (iblk2 V c 0 t) (iblk2 V c 1 t) j).trans ?_
  show ∑ k : Fin 128, at_main_v48 V c (((cfg2.win 0).blk t).view.emb (rowAt j k)) * at_main_v49 V c (((cfg2.win 1).blk t).view.emb (colAt j k))
    = ∑ k : Fin 128, at_main_v48 V c (rowOf (((cfg2.win 2).blk t).view.emb j) k) * at_main_v49 V c (colOf (((cfg2.win 2).blk t).view.emb j) k)
  refine Finset.sum_congr rfl fun k _ => ?_
  have hx : ((cfg2.win 0).blk t).view.emb (rowAt j k) = rowOf (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : ((cfg2.win 1).blk t).view.emb (colAt j k) = colOf (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An entry of the result array is in point t's block iff its row is among rows 5000 t … 5000 t + 4999. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- The twenty row blocks tile the result array: row r lies in block r / 5000. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨e0, e1, e2, e3, e4, e5⟩ := blocks2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2 its result array holds the product of the activations and the weights it was entered with. -/
theorem result2 (c : Dev nD) : (dat2 V c).arrAt 2 cfg2.N = rowsTimes (V c main_v48) (V c main_v49) :=
  (dat2 V c).arrAt_eq_of_cover 2 (rowsTimes (V c main_v48) (V c main_v49)) (fun t _ => flushed2_eq V c t) (covered2)

end Cert.KernelIdeal.Linear

end
-- ==== Proof.BiasSteps.lean ====
/-
  The two bias-carrying bodies, read at an entry.
  The epilogue of a layer (second and fourth pallas_call) stores, at (p, q) of a 5000-row block,
      max (agg[p, q] + b[q], 0) + res[p, q]
  (the bias a 1 × 128 row broadcast down the block); the head (fifth pallas_call) stores
      Σₖ h[p, k] · w[k, q] + b[q]
  with a 128 × 64 matrix and a 1 × 64 bias row.
-/
import proofs.«137837_j52158082842768_1_alg».proof.Proof.BlockProducts

noncomputable section

namespace Cert.KernelIdeal.Products

open Cert.KernelIdeal Cert.KernelIdeal.Gen Idealize.ShloMosaic Idealize.ShloMosaic.TcCoe

/-- The bias row's entry over column (i 1) of a 5000 × 128 block. -/
abbrev biasAt (i : S5000x128.Idx) : S1x128.Idx := fun a => match a with
  | ⟨0, _⟩ => ⟨0, Nat.one_pos⟩
  | ⟨1, _⟩ => ⟨(i 1).val, (i 1).isLt⟩
/-- The bias row's entry over column (i 1) of a 5000 × 64 block. -/
abbrev biasAtH (i : S5000x64.Idx) : S1x64.Idx := fun a => match a with
  | ⟨0, _⟩ => ⟨0, Nat.one_pos⟩
  | ⟨1, _⟩ => ⟨(i 1).val, (i 1).isLt⟩

/-- A 1 × 128 row broadcast down 5000 rows reads, at (p, q), the row's entry q. -/
theorem biasRow_apply {α : Type} (b : S1x128.Idx → α) (h : S1x128.Broadcasts S5000x128) (i : S5000x128.Idx) :
    broadcastTo S5000x128 b h i = b (biasAt i) :=
  broadcastTo_apply b h i (biasAt i) (fun a => match a with
    | ⟨0, _⟩ => by show (0 : Nat) = if (1 : Nat) = 1 then 0 else _; rw [if_pos rfl]
    | ⟨1, _⟩ => by show (i 1).val = if (128 : Nat) = 1 then 0 else _; rw [if_neg (by decide)]; rfl)

/-- A 1 × 64 row broadcast down 5000 rows reads, at (p, q), the row's entry q. -/
theorem biasRowH_apply {α : Type} (b : S1x64.Idx → α) (h : S1x64.Broadcasts S5000x64) (i : S5000x64.Idx) :
    broadcastTo S5000x64 b h i = b (biasAtH i) :=
  broadcastTo_apply b h i (biasAtH i) (fun a => match a with
    | ⟨0, _⟩ => by show (0 : Nat) = if (1 : Nat) = 1 then 0 else _; rw [if_pos rfl]
    | ⟨1, _⟩ => by show (i 1).val = if (64 : Nat) = 1 then 0 else _; rw [if_neg (by decide)]; rfl)

/-- The first layer's epilogue at an entry: the aggregate plus the bias, clipped below at zero, plus the residual. -/
theorem epilogue1_apply (agg : Vec Ideal S5000x128 .f32) (b : Vec Ideal S1x128 .f32) (res : Vec Ideal S5000x128 .f32) (i : S5000x128.Idx) :
    k1_pay1 (F := Ideal) agg b res i = max (agg i + b (biasAt i)) (Ideal.ofBits .f32 0x00000000#32) + res i := by
  unfold k1_pay1
  simp only [shapeCast_self]
  show max (agg i + broadcastTo S5000x128 b _ i) _ + res i = _
  rw [biasRow_apply]
  rfl

/-- The second layer's epilogue at an entry: the same function. -/
theorem epilogue2_apply (agg : Vec Ideal S5000x128 .f32) (b : Vec Ideal S1x128 .f32) (res : Vec Ideal S5000x128 .f32) (i : S5000x128.Idx) :
    k3_pay1 (F := Ideal) agg b res i = max (agg i + b (biasAt i)) (Ideal.ofBits .f32 0x00000000#32) + res i := by
  unfold k3_pay1
  simp only [shapeCast_self]
  show max (agg i + broadcastTo S5000x128 b _ i) _ + res i = _
  rw [biasRow_apply]
  rfl

/-- The head at an entry: the row of the block against the column of the head matrix, plus the bias. -/
theorem head_apply (x : Vec Ideal S5000x128 .f32) (w : Vec Ideal S128x64 .f32) (b : Vec Ideal S1x64 .f32) (i : S5000x64.Idx) :
    k4_pay1 (F := Ideal) x w b i = (∑ k : Fin 128, x (rowAtH i k) * w (colAtH i k)) + b (biasAtH i) := by
  unfold k4_pay1
  simp only [shapeCast_self]
  show matmul (F := Ideal) _ none _ _ _ i + broadcastTo S5000x64 b _ i = _
  rw [blockProductH, biasRowH_apply]
  rfl

end Cert.KernelIdeal.Products

end
-- ==== Proof.BiasRegions.lean ====
/-
  The three bias-carrying regions. The second and fourth pallas_call finish a layer: point t takes rows
  5000 t … 5000 t + 4999 of the aggregate and of the residual and the whole bias row and writes
  max (agg + b, 0) + res for those rows. The fifth is the head: rows of the activations times the 128 × 64 matrix plus
  the bias row. After each region its result array is that function of the arrays it was entered with, entry by entry.
-/
import proofs.«137837_j52158082842768_1_alg».proof.Proof.Gen.KernelIdeal.Frame
import proofs.«137837_j52158082842768_1_alg».proof.Proof.BiasSteps
import Idealize.ShloMosaic.Lib.Pipeline.Value

set_option maxRecDepth 16384

noncomputable section

namespace Cert.KernelIdeal.Biased

open Idealize.ShloMosaic Idealize.ShloMosaic.TcCoe Idealize.SL.Sem
open Idealize.ShloMosaic.Pipeline (Dat)
open Cert.KernelIdeal Cert.KernelIdeal.Gen Cert.KernelIdeal.Products

/-- The bias row's entry over column (i 1) of the 100000 × 128 array. -/
abbrev biasOf (i : S100000x128.Idx) : S1x128.Idx := fun a => match a with
  | ⟨0, _⟩ => ⟨0, Nat.one_pos⟩
  | ⟨1, _⟩ => ⟨(i 1).val, (i 1).isLt⟩
/-- Position k of row (i 0) of the activations, for an entry of the 100000 × 64 result. -/
abbrev rowOfH (i : S100000x64.Idx) (k : Fin 128) : S100000x128.Idx := fun a => match a with
  | ⟨0, _⟩ => ⟨(i 0).val, (i 0).isLt⟩
  | ⟨1, _⟩ => ⟨k.val, k.isLt⟩
/-- Position k of column (i 1) of the 128 × 64 head matrix. -/
abbrev colOfH (i : S100000x64.Idx) (k : Fin 128) : S128x64.Idx := fun a => match a with
  | ⟨0, _⟩ => ⟨k.val, k.isLt⟩
  | ⟨1, _⟩ => ⟨(i 1).val, (i 1).isLt⟩
/-- The head's bias entry over column (i 1). -/
abbrev biasOfH (i : S100000x64.Idx) : S1x64.Idx := fun a => match a with
  | ⟨0, _⟩ => ⟨0, Nat.one_pos⟩
  | ⟨1, _⟩ => ⟨(i 1).val, (i 1).isLt⟩

/-- A layer's epilogue: the aggregate plus the bias, clipped below at zero, plus the residual. -/
def epilogue (agg : S100000x128.Idx → Elt Ideal .f32) (b : S1x128.Idx → Elt Ideal .f32) (res : S100000x128.Idx → Elt Ideal .f32) :
    S100000x128.Idx → Elt Ideal .f32 :=
  fun i => max (agg i + b (biasOf i)) (Ideal.ofBits .f32 0x00000000#32) + res i

/-- The head: activations times the head matrix, plus the bias. -/
def headOf (x : S100000x128.Idx → Elt Ideal .f32) (w : S128x64.Idx → Elt Ideal .f32) (b : S1x64.Idx → Elt Ideal .f32) :
    S100000x64.Idx → Elt Ideal .f32 :=
  fun i => (∑ k : Fin 128, x (rowOfH i k) * w (colOfH i k)) + b (biasOfH i)

theorem hz : (![0, 0] : Fin 2 → Nat) = fun _ => 0 := funext fun a => by fin_cases a <;> rfl

variable (V : (c : Dev nD) → (b : Ref sig .tc) → Buf (Elt Ideal) ((c : Thread nD τ).loc b))

/-- The contents of `main_v46` as the region finds them, at the array's literal type. -/
abbrev at_main_v46 (c : Dev nD) : S100000x128.Idx → Elt Ideal .f32 := V c main_v46
/-- The contents of `main_v47` as the region finds them, at the array's literal type. -/
abbrev at_main_v47 (c : Dev nD) : S1x128.Idx → Elt Ideal .f32 := V c main_v47
/-- The contents of `main_arg0` as the region finds them, at the array's literal type. -/
abbrev at_main_arg0 (c : Dev nD) : S100000x128.Idx → Elt Ideal .f32 := V c main_arg0
/-- The contents of `main_v63` as the region finds them, at the array's literal type. -/
abbrev at_main_v63 (c : Dev nD) : S100000x128.Idx → Elt Ideal .f32 := V c main_v63
/-- The contents of `main_v64` as the region finds them, at the array's literal type. -/
abbrev at_main_v64 (c : Dev nD) : S1x128.Idx → Elt Ideal .f32 := V c main_v64
/-- The contents of `main_v48` as the region finds them, at the array's literal type. -/
abbrev at_main_v48 (c : Dev nD) : S100000x128.Idx → Elt Ideal .f32 := V c main_v48
/-- The contents of `main_v65` as the region finds them, at the array's literal type. -/
abbrev at_main_v65 (c : Dev nD) : S100000x128.Idx → Elt Ideal .f32 := V c main_v65
/-- The contents of `main_v66` as the region finds them, at the array's literal type. -/
abbrev at_main_v66 (c : Dev nD) : S128x64.Idx → Elt Ideal .f32 := V c main_v66
/-- The contents of `main_v67` as the region finds them, at the array's literal type. -/
abbrev at_main_v67 (c : Dev nD) : S1x64.Idx → Elt Ideal .f32 := V c main_v67

/-! ## Region 1 -/

/-- Where each window's block sits at a grid point: aggregate, residual and result at row block t, the bias row whole. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the epilogue of the three arrays as the region finds them. -/
theorem flushed1_eq (c : Dev nD) (t : Fin cfg1.N) :
    (dat1 V c).flushed 3 t = ((cfg1.win 3).blk t).view.read (Elt Ideal) (epilogue (V c main_v46) (V c main_v47) (V c main_arg0)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e0, e1, e2, e3, e4, e5, e6, e7⟩ := blocks1 t
  funext j
  refine (epilogue1_apply (iblk1 V c 0 t) (iblk1 V c 1 t) (iblk1 V c 2 t) j).trans ?_
  show max (at_main_v46 V c (((cfg1.win 0).blk t).view.emb j) + at_main_v47 V c (((cfg1.win 1).blk t).view.emb (biasAt j))) (Ideal.ofBits .f32 0x00000000#32) + at_main_arg0 V c (((cfg1.win 2).blk t).view.emb j)
    = max (at_main_v46 V c (((cfg1.win 3).blk t).view.emb j) + at_main_v47 V c (biasOf (((cfg1.win 3).blk t).view.emb j))) (Ideal.ofBits .f32 0x00000000#32) + at_main_arg0 V c (((cfg1.win 3).blk t).view.emb j)
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (biasAt j) = biasOf (((cfg1.win 3).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 128 + 1 * (j 1).val = win1_3.index t (1 : Fin 2) * 128 + 1 * (j 1).val; omega
  rw [h0, h1, h2]

/-- An entry of the result array is in point t's block iff its row is among rows 5000 t … 5000 t + 4999. -/
theorem mem_block1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- The twenty row blocks tile the result array: row r lies in block r / 5000. -/
theorem covered1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨e0, e1, e2, e3, e4, e5, e6, e7⟩ := blocks1 t
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After region 1 its result array holds the epilogue of the aggregate, the bias row and the residual it was entered with. -/
theorem result1 (c : Dev nD) : (dat1 V c).arrAt 3 cfg1.N = epilogue (V c main_v46) (V c main_v47) (V c main_arg0) :=
  (dat1 V c).arrAt_eq_of_cover 3 (epilogue (V c main_v46) (V c main_v47) (V c main_arg0)) (fun t _ => flushed1_eq V c t) (covered1)

/-! ## Region 3 -/

/-- Where each window's block sits at a grid point: aggregate, residual and result at row block t, the bias row whole. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of the epilogue of the three arrays as the region finds them. -/
theorem flushed3_eq (c : Dev nD) (t : Fin cfg3.N) :
    (dat3 V c).flushed 3 t = ((cfg3.win 3).blk t).view.read (Elt Ideal) (epilogue (V c main_v63) (V c main_v64) (V c main_v48)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e0, e1, e2, e3, e4, e5, e6, e7⟩ := blocks3 t
  funext j
  refine (epilogue2_apply (iblk3 V c 0 t) (iblk3 V c 1 t) (iblk3 V c 2 t) j).trans ?_
  show max (at_main_v63 V c (((cfg3.win 0).blk t).view.emb j) + at_main_v64 V c (((cfg3.win 1).blk t).view.emb (biasAt j))) (Ideal.ofBits .f32 0x00000000#32) + at_main_v48 V c (((cfg3.win 2).blk t).view.emb j)
    = max (at_main_v63 V c (((cfg3.win 3).blk t).view.emb j) + at_main_v64 V c (biasOf (((cfg3.win 3).blk t).view.emb j))) (Ideal.ofBits .f32 0x00000000#32) + at_main_v48 V c (((cfg3.win 3).blk t).view.emb j)
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb (biasAt j) = biasOf (((cfg3.win 3).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega
  have h2 : ((cfg3.win 2).blk t).view.emb j = ((cfg3.win 3).blk t).view.emb j := by
    funext a; apply Fin.ext
    match a with
    | ⟨0, _⟩ => show win3_2.index t (0 : Fin 2) * 5000 + 1 * (j 0).val = win3_3.index t (0 : Fin 2) * 5000 + 1 * (j 0).val; omega
    | ⟨1, _⟩ => show win3_2.index t (1 : Fin 2) * 128 + 1 * (j 1).val = win3_3.index t (1 : Fin 2) * 128 + 1 * (j 1).val; omega
  rw [h0, h1, h2]

/-- An entry of the result array is in point t's block iff its row is among rows 5000 t … 5000 t + 4999. -/
theorem mem_block3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v65).slice (win3_3.rect t)).set ↔ _
  rw [View.set_slice_whole, Rect.mem_set_unit]
  exact Iff.rfl

/-- The twenty row blocks tile the result array: row r lies in block r / 5000. -/
theorem covered3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨e0, e1, e2, e3, e4, e5, e6, e7⟩ := blocks3 t
  refine ⟨t, flush3_3 t, ?_⟩
  rw [mem_block3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After region 3 its result array holds the epilogue of the aggregate, the bias row and the residual it was entered with. -/
theorem result3 (c : Dev nD) : (dat3 V c).arrAt 3 cfg3.N = epilogue (V c main_v63) (V c main_v64) (V c main_v48) :=
  (dat3 V c).arrAt_eq_of_cover 3 (epilogue (V c main_v63) (V c main_v64) (V c main_v48)) (fun t _ => flushed3_eq V c t) (covered3)

/-! ## Region 4: the head -/

/-- Where each window's block sits at a grid point: activations and result at row block t, matrix and bias row whole. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the head of the three arrays as the region finds them. -/
theorem flushed4_eq (c : Dev nD) (t : Fin cfg4.N) :
    (dat4 V c).flushed 3 t = ((cfg4.win 3).blk t).view.read (Elt Ideal) (headOf (V c main_v65) (V c main_v66) (V c main_v67)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := blocks4 t
  funext j
  refine (head_apply (iblk4 V c 0 t) (iblk4 V c 1 t) (iblk4 V c 2 t) j).trans ?_
  show (∑ k : Fin 128, at_main_v65 V c (((cfg4.win 0).blk t).view.emb (rowAtH j k)) * at_main_v66 V c (((cfg4.win 1).blk t).view.emb (colAtH j k))) + at_main_v67 V c (((cfg4.win 2).blk t).view.emb (biasAtH j))
    = (∑ k : Fin 128, at_main_v65 V c (rowOfH (((cfg4.win 3).blk t).view.emb j) k) * at_main_v66 V c (colOfH (((cfg4.win 3).blk t).view.emb j) k)) + at_main_v67 V c (biasOfH (((cfg4.win 3).blk t).view.emb j))
  have hb : ((cfg4.win 2).blk t).view.emb (biasAtH j) = biasOfH (((cfg4.win 3).blk t).view.emb j) := by
    funext a; apply Fin.ext
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega
  rw [hb]
  refine congrArg (· + _) (Finset.sum_congr rfl fun k _ => ?_)
  have hx : ((cfg4.win 0).blk t).view.emb (rowAtH j k) = rowOfH (((cfg4.win 3).blk t).view.emb j) k := by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  have hw : ((cfg4.win 1).blk t).view.emb (colAtH j k) = colOfH (((cfg4.win 3).blk t).view.emb j) k := by
    funext a; apply Fin.ext
    match a with
    | ⟨0, _⟩ => show win4_1.index t (0 : Fin 2) * 128 + 1 * k.val = k.val; omega
    | ⟨1, _⟩ => show win4_1.index t (1 : Fin 2) * 64 + 1 * (j 1).val = win4_3.index t (1 : Fin 2) * 64 + 1 * (j 1).val; omega
  rw [hx, hw]

/-- An entry of the result array is in point t's block iff its row is among rows 5000 t … 5000 t + 4999. -/
theorem mem_block4 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v68).slice (win4_3.rect t)).set ↔ _
  rw [View.set_slice_whole, Rect.mem_set_unit]
  exact Iff.rfl

/-- The twenty row blocks tile the result array: row r lies in block r / 5000. -/
theorem covered4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  have ht : t.val = (i 0).val / 5000 := rfl
  obtain ⟨e0, e1, e2, e3, e4, e5, e6, e7⟩ := blocks4 t
  refine ⟨t, flush4_3 t, ?_⟩
  rw [mem_block4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After region 4 the program's result array holds the head of the activations, the head matrix and its bias row. -/
theorem result4 (c : Dev nD) : (dat4 V c).arrAt 3 cfg4.N = headOf (V c main_v65) (V c main_v66) (V c main_v67) :=
  (dat4 V c).arrAt_eq_of_cover 3 (headOf (V c main_v65) (V c main_v66) (V c main_v67)) (fun t _ => flushed4_eq V c t) (covered4)

end Cert.KernelIdeal.Biased

end
-- ==== Proof.HostStretches.lean ====
/-
  The host operations around the five pallas_calls, read as functions of the buffer contents they start from.
  Before the first call: the edge list with self-loops (sources, targets), the degree of every node, its inverse
  square root where the degree is positive, the per-edge norm dis[s] · dis[d], and the first weight matrix transposed.
  Between the calls of a layer: one round of message passing — gather the transformed rows at the sources, scale each by
  its edge's norm, add them up at the targets — and the bias reshaped to a row. That round is the same chain of host
  operations in both layers and in the reference, so it is carried as ONE function (`aggregate`) and never opened.
  Every fact here holds for any float family.
-/
import proofs.«137837_j52158082842768_1_alg».proof.Proof.Gen.KernelIdeal.Launch
import proofs.«137837_j52158082842768_1_alg».proof.Proof.RefRead
import Idealize.ShloMosaic.Lib.StableHlo.Run

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen

variable {F : FTy → Type} [FloatOps F]

/-- One round of message passing: the rows of `mm` gathered at the sources `s` (a negative index counted from the end),
    each scaled by its edge's norm, added up at the targets `d` into a zero array. -/
def aggregate (mm : (⟨S100000x128, .f32⟩ : BufTy).Contents (Elt F)) (s d : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] Facts₀.bcast_S_S100000x128 (constant (F := F) S_ .f32 0x00000000#32))
    (broadcastInDim S1700000x1 ![0] Facts₀.bcast_S1700000_S1700000x1_0 d)
    (mulf
      (Host.gather gather_S100000x128_S1700000x1_S1700000x128_1_0_n_n_0_1_1128 mm
        (broadcastInDim S1700000x1 ![0] Facts₀.bcast_S1700000_S1700000x1_0
          (select (cmpi .slt s (broadcastInDim S1700000 ![] Facts₀.bcast_S_S1700000 (constantI S_ 32 0#32)))
            (addi s (broadcastInDim S1700000 ![] Facts₀.bcast_S_S1700000 (constantI S_ 32 100000#32))) s)))
      (broadcastInDim S1700000x128 ![0, 1] Facts₀.bcast_S1700000x1_S1700000x128_0_1
        (broadcastInDim S1700000x1 ![0] Facts₀.bcast_S1700000_S1700000x1_0 nrm)))

variable (Wv : Valuation τ sig (Elt F))

/-! ## Before the first call -/

/-- The contents after the three opening stretches. -/
abbrev opened : Valuation τ sig (Elt F) :=
  StableHlo.after hostOps0_2 (StableHlo.after hostOps0_1 (StableHlo.after hostOps0 Wv))

/-- The sources with self-loops are the reference's. -/
theorem opened_sources : opened Wv (Proc.devRef .tc main_v5) = Cert.ReferenceIdeal.ReadP.val_main_v5 (F := F) (Wv (Proc.devRef .tc main_arg1)) := by
  show StableHlo.after hostOps0_2 (StableHlo.after hostOps0_1 (StableHlo.after hostOps0 Wv)) (Proc.devRef .tc main_v5) = _
  after_results_simp <;> rfl
/-- The targets with self-loops are the reference's. -/
theorem opened_targets : opened Wv (Proc.devRef .tc main_v6) = Cert.ReferenceIdeal.ReadP.val_main_v6 (F := F) (Wv (Proc.devRef .tc main_arg1)) := by
  show StableHlo.after hostOps0_2 (StableHlo.after hostOps0_1 (StableHlo.after hostOps0 Wv)) (Proc.devRef .tc main_v6) = _
  after_results_simp <;> rfl
/-- The per-edge norm is the reference's. -/
theorem opened_norm : opened Wv (Proc.devRef .tc main_v31) = Cert.ReferenceIdeal.ReadP.val_main_v31 (F := F) (Wv (Proc.devRef .tc main_arg1)) := by
  show StableHlo.after hostOps0_2 (StableHlo.after hostOps0_1 (StableHlo.after hostOps0 Wv)) (Proc.devRef .tc main_v31) = _
  after_results_simp <;> rfl
/-- The first weight matrix transposed is the reference's. -/
theorem opened_weights : opened Wv (Proc.devRef .tc main_v32) = Cert.ReferenceIdeal.ReadP.val_main_v32 (F := F) (Wv (Proc.devRef .tc main_arg2)) := by
  show StableHlo.after hostOps0_2 (StableHlo.after hostOps0_1 (StableHlo.after hostOps0 Wv)) (Proc.devRef .tc main_v32) = _
  after_results_simp <;> rfl
theorem opened_main_arg0 : opened Wv (Proc.devRef .tc main_arg0) = Wv (Proc.devRef .tc main_arg0) := by
  show StableHlo.after hostOps0_2 (StableHlo.after hostOps0_1 (StableHlo.after hostOps0 Wv)) (Proc.devRef .tc main_arg0) = _
  after_results_simp <;> rfl
theorem opened_main_arg3 : opened Wv (Proc.devRef .tc main_arg3) = Wv (Proc.devRef .tc main_arg3) := by
  show StableHlo.after hostOps0_2 (StableHlo.after hostOps0_1 (StableHlo.after hostOps0 Wv)) (Proc.devRef .tc main_arg3) = _
  after_results_simp <;> rfl
theorem opened_main_arg4 : opened Wv (Proc.devRef .tc main_arg4) = Wv (Proc.devRef .tc main_arg4) := by
  show StableHlo.after hostOps0_2 (StableHlo.after hostOps0_1 (StableHlo.after hostOps0 Wv)) (Proc.devRef .tc main_arg4) = _
  after_results_simp <;> rfl
theorem opened_main_arg5 : opened Wv (Proc.devRef .tc main_arg5) = Wv (Proc.devRef .tc main_arg5) := by
  show StableHlo.after hostOps0_2 (StableHlo.after hostOps0_1 (StableHlo.after hostOps0 Wv)) (Proc.devRef .tc main_arg5) = _
  after_results_simp <;> rfl
theorem opened_main_arg6 : opened Wv (Proc.devRef .tc main_arg6) = Wv (Proc.devRef .tc main_arg6) := by
  show StableHlo.after hostOps0_2 (StableHlo.after hostOps0_1 (StableHlo.after hostOps0 Wv)) (Proc.devRef .tc main_arg6) = _
  after_results_simp <;> rfl
theorem opened_main_arg7 : opened Wv (Proc.devRef .tc main_arg7) = Wv (Proc.devRef .tc main_arg7) := by
  show StableHlo.after hostOps0_2 (StableHlo.after hostOps0_1 (StableHlo.after hostOps0 Wv)) (Proc.devRef .tc main_arg7) = _
  after_results_simp <;> rfl

/-! ## Between the first and the second call -/

/-- The first layer's aggregate is a round of message passing over the first call's result. -/
theorem mid1_aggregate : StableHlo.after hostOps1 Wv (Proc.devRef .tc main_v46)
    = aggregate (Wv (Proc.devRef .tc main_v33)) (Wv (Proc.devRef .tc main_v5)) (Wv (Proc.devRef .tc main_v6)) (Wv (Proc.devRef .tc main_v31)) := by
  after_results_simp <;> rfl
/-- The first bias as a row. -/
theorem mid1_bias : StableHlo.after hostOps1 Wv (Proc.devRef .tc main_v47) = shapeCast S1x128 (Wv (Proc.devRef .tc main_arg3)) Facts₀.shapeCasts_S128_S1x128 := by
  after_results_simp <;> rfl
theorem mid1_main_arg0 : StableHlo.after hostOps1 Wv (Proc.devRef .tc main_arg0) = Wv (Proc.devRef .tc main_arg0) := by
  after_results_simp <;> rfl
theorem mid1_main_v5 : StableHlo.after hostOps1 Wv (Proc.devRef .tc main_v5) = Wv (Proc.devRef .tc main_v5) := by
  after_results_simp <;> rfl
theorem mid1_main_v6 : StableHlo.after hostOps1 Wv (Proc.devRef .tc main_v6) = Wv (Proc.devRef .tc main_v6) := by
  after_results_simp <;> rfl
theorem mid1_main_v31 : StableHlo.after hostOps1 Wv (Proc.devRef .tc main_v31) = Wv (Proc.devRef .tc main_v31) := by
  after_results_simp <;> rfl
theorem mid1_main_arg4 : StableHlo.after hostOps1 Wv (Proc.devRef .tc main_arg4) = Wv (Proc.devRef .tc main_arg4) := by
  after_results_simp <;> rfl
theorem mid1_main_arg5 : StableHlo.after hostOps1 Wv (Proc.devRef .tc main_arg5) = Wv (Proc.devRef .tc main_arg5) := by
  after_results_simp <;> rfl
theorem mid1_main_arg6 : StableHlo.after hostOps1 Wv (Proc.devRef .tc main_arg6) = Wv (Proc.devRef .tc main_arg6) := by
  after_results_simp <;> rfl
theorem mid1_main_arg7 : StableHlo.after hostOps1 Wv (Proc.devRef .tc main_arg7) = Wv (Proc.devRef .tc main_arg7) := by
  after_results_simp <;> rfl

/-! ## Between the second and the third call -/

/-- The second weight matrix transposed is the reference's. -/
theorem mid2_weights : StableHlo.after hostOps2 Wv (Proc.devRef .tc main_v49) = Cert.ReferenceIdeal.ReadP.val_main_v81 (F := F) (Wv (Proc.devRef .tc main_arg4)) := by
  after_results_simp <;> rfl
theorem mid2_main_v48 : StableHlo.after hostOps2 Wv (Proc.devRef .tc main_v48) = Wv (Proc.devRef .tc main_v48) := by
  after_results_simp <;> rfl
theorem mid2_main_v5 : StableHlo.after hostOps2 Wv (Proc.devRef .tc main_v5) = Wv (Proc.devRef .tc main_v5) := by
  after_results_simp <;> rfl
theorem mid2_main_v6 : StableHlo.after hostOps2 Wv (Proc.devRef .tc main_v6) = Wv (Proc.devRef .tc main_v6) := by
  after_results_simp <;> rfl
theorem mid2_main_v31 : StableHlo.after hostOps2 Wv (Proc.devRef .tc main_v31) = Wv (Proc.devRef .tc main_v31) := by
  after_results_simp <;> rfl
theorem mid2_main_arg5 : StableHlo.after hostOps2 Wv (Proc.devRef .tc main_arg5) = Wv (Proc.devRef .tc main_arg5) := by
  after_results_simp <;> rfl
theorem mid2_main_arg6 : StableHlo.after hostOps2 Wv (Proc.devRef .tc main_arg6) = Wv (Proc.devRef .tc main_arg6) := by
  after_results_simp <;> rfl
theorem mid2_main_arg7 : StableHlo.after hostOps2 Wv (Proc.devRef .tc main_arg7) = Wv (Proc.devRef .tc main_arg7) := by
  after_results_simp <;> rfl

/-! ## Between the third and the fourth call -/

/-- The second layer's aggregate is a round of message passing over the third call's result. -/
theorem mid3_aggregate : StableHlo.after hostOps3 Wv (Proc.devRef .tc main_v63)
    = aggregate (Wv (Proc.devRef .tc main_v50)) (Wv (Proc.devRef .tc main_v5)) (Wv (Proc.devRef .tc main_v6)) (Wv (Proc.devRef .tc main_v31)) := by
  after_results_simp <;> rfl
/-- The second bias as a row. -/
theorem mid3_bias : StableHlo.after hostOps3 Wv (Proc.devRef .tc main_v64) = shapeCast S1x128 (Wv (Proc.devRef .tc main_arg5)) Facts₀.shapeCasts_S128_S1x128 := by
  after_results_simp <;> rfl
theorem mid3_main_v48 : StableHlo.after hostOps3 Wv (Proc.devRef .tc main_v48) = Wv (Proc.devRef .tc main_v48) := by
  after_results_simp <;> rfl
theorem mid3_main_arg6 : StableHlo.after hostOps3 Wv (Proc.devRef .tc main_arg6) = Wv (Proc.devRef .tc main_arg6) := by
  after_results_simp <;> rfl
theorem mid3_main_arg7 : StableHlo.after hostOps3 Wv (Proc.devRef .tc main_arg7) = Wv (Proc.devRef .tc main_arg7) := by
  after_results_simp <;> rfl

/-! ## Between the fourth and the fifth call -/

/-- The head matrix transposed is the reference's. -/
theorem mid4_weights : StableHlo.after hostOps4 Wv (Proc.devRef .tc main_v66) = Cert.ReferenceIdeal.ReadP.val_main_v102 (F := F) (Wv (Proc.devRef .tc main_arg6)) := by
  after_results_simp <;> rfl
/-- The head's bias as a row. -/
theorem mid4_bias : StableHlo.after hostOps4 Wv (Proc.devRef .tc main_v67) = shapeCast S1x64 (Wv (Proc.devRef .tc main_arg7)) Facts₀.shapeCasts_S64_S1x64 := by
  after_results_simp <;> rfl
theorem mid4_main_v65 : StableHlo.after hostOps4 Wv (Proc.devRef .tc main_v65) = Wv (Proc.devRef .tc main_v65) := by
  after_results_simp <;> rfl

/-! ## The reference's two aggregates are the same round of message passing -/

section Reference
variable (x0 : (⟨S100000x128, .f32⟩ : BufTy).Contents (Elt F)) (x1 : (⟨S2x1600000, .i32⟩ : BufTy).Contents (Elt F))
  (x2 : (⟨S128x128, .f32⟩ : BufTy).Contents (Elt F)) (x3 : (⟨S128, .f32⟩ : BufTy).Contents (Elt F))
  (x4 : (⟨S128x128, .f32⟩ : BufTy).Contents (Elt F))

/-- The reference's first aggregate: message passing over its first product, with its own sources, targets and norm. -/
theorem reference_aggregate1 : Cert.ReferenceIdeal.ReadP.val_main_v46 (F := F) x0 x1 x2
    = aggregate (Cert.ReferenceIdeal.ReadP.val_main_v33 (F := F) x0 x2) (Cert.ReferenceIdeal.ReadP.val_main_v5 (F := F) x1) (Cert.ReferenceIdeal.ReadP.val_main_v6 (F := F) x1) (Cert.ReferenceIdeal.ReadP.val_main_v31 (F := F) x1) := rfl

/-- The reference's second aggregate: it recomputes sources, targets and norm by the same operations, so it is message
    passing over its second product with the FIRST layer's sources, targets and norm. -/
theorem reference_aggregate2 : Cert.ReferenceIdeal.ReadP.val_main_v95 (F := F) x0 x1 x2 x3 x4
    = aggregate (Cert.ReferenceIdeal.ReadP.val_main_v82 (F := F) x0 x1 x2 x3 x4) (Cert.ReferenceIdeal.ReadP.val_main_v5 (F := F) x1) (Cert.ReferenceIdeal.ReadP.val_main_v6 (F := F) x1) (Cert.ReferenceIdeal.ReadP.val_main_v31 (F := F) x1) := rfl
end Reference

end Cert.KernelIdeal.Stretches

end
-- ==== Proof.RefBridges.lean ====
/-
  The reference's stages as the same functions the kernel's regions compute. Its three `dot_general`s are the
  row-times-matrix sums; its lines "add the bias, clip at zero, add the residual" are the epilogue, the bias entering
  as the vector's entry under the column — which is also what the kernel's reshaped 1 × 128 bias row holds there; its
  last two lines are the head. All of this at the extended reals, entry by entry.
-/
import proofs.«137837_j52158082842768_1_alg».proof.Proof.RefRead
import proofs.«137837_j52158082842768_1_alg».proof.Proof.LinearRegions
import proofs.«137837_j52158082842768_1_alg».proof.Proof.BiasRegions

noncomputable section

namespace Cert.KernelIdeal.Bridges

open Idealize.ShloMosaic Idealize.ShloMosaic.TcCoe
open Cert.KernelIdeal Cert.KernelIdeal.Linear Cert.KernelIdeal.Biased

/-- A 128-vector reshaped to a 1 × 128 row holds, over column (i 1), the vector's entry (i 1). -/
theorem rowOfVector_apply {α : Type} (b : S128.Idx → α) (h : S128.ShapeCasts S1x128) (i : S100000x128.Idx) (k : S128.Idx)
    (hk : (k 0).val = (i 1).val) : shapeCast S1x128 b h (biasOf i) = b k :=
  shapeCast_apply b h (biasOf i) k (by
    rw [Shape.rowMajor_val_one, Shape.rowMajor_val_two]
    show (k 0).val = 0 * 128 + (i 1).val
    omega)

/-- A 64-vector reshaped to a 1 × 64 row holds, over column (i 1), the vector's entry (i 1). -/
theorem rowOfVectorH_apply {α : Type} (b : S64.Idx → α) (h : S64.ShapeCasts S1x64) (i : S100000x64.Idx) (k : S64.Idx)
    (hk : (k 0).val = (i 1).val) : shapeCast S1x64 b h (biasOfH i) = b k :=
  shapeCast_apply b h (biasOfH i) k (by
    rw [Shape.rowMajor_val_one, Shape.rowMajor_val_two]
    show (k 0).val = 0 * 64 + (i 1).val
    omega)

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S64x128, .f32⟩ : BufTy).Contents (Elt Ideal)) (x7 : (⟨S64, .f32⟩ : BufTy).Contents (Elt Ideal))

/-- The reference's first product is the features times the first weight matrix transposed. -/
theorem reference_product1 : Cert.ReferenceIdeal.ReadP.val_main_v33 (F := Ideal) x0 x2 = rowsTimes x0 (Cert.ReferenceIdeal.ReadP.val_main_v32 (F := Ideal) x2) := by
  funext i
  rw [Cert.ReferenceIdeal.ReadP.val_main_v33_apply]
  rfl

/-- The reference's first layer ends at the epilogue of its aggregate, the first bias and the features. -/
theorem reference_layer1 (h : S128.ShapeCasts S1x128) : Cert.ReferenceIdeal.ReadP.val_main_v52 (F := Ideal) x0 x1 x2 x3
    = epilogue (Cert.ReferenceIdeal.ReadP.val_main_v46 (F := Ideal) x0 x1 x2) (shapeCast S1x128 x3 h) x0 := by
  funext i
  rw [Cert.ReferenceIdeal.ReadP.val_main_v52_apply, Cert.ReferenceIdeal.ReadP.val_main_v51_apply, Cert.ReferenceIdeal.ReadP.val_main_v49_apply, Cert.ReferenceIdeal.ReadP.val_main_v50_apply,
    Cert.ReferenceIdeal.ReadP.val_main_cst_10_apply, Cert.ReferenceIdeal.ReadP.val_main_v48_apply, Cert.ReferenceIdeal.ReadP.val_main_v47_apply]
  show _ = max (_ + shapeCast S1x128 x3 h (biasOf i)) _ + _
  rw [rowOfVector_apply x3 h i (Cert.ReferenceIdeal.ReadP.idx_main_v47 (Cert.ReferenceIdeal.ReadP.idx_main_v48 i)) rfl]
  rfl

/-- The reference's second product is the first layer's result times the second weight matrix transposed. -/
theorem reference_product2 : Cert.ReferenceIdeal.ReadP.val_main_v82 (F := Ideal) x0 x1 x2 x3 x4
    = rowsTimes (Cert.ReferenceIdeal.ReadP.val_main_v52 (F := Ideal) x0 x1 x2 x3) (Cert.ReferenceIdeal.ReadP.val_main_v81 (F := Ideal) x4) := by
  funext i
  rw [Cert.ReferenceIdeal.ReadP.val_main_v82_apply]
  rfl

/-- The reference's second layer ends at the epilogue of its second aggregate, the second bias and the first layer's result. -/
theorem reference_layer2 (h : S128.ShapeCasts S1x128) : Cert.ReferenceIdeal.ReadP.val_main_v101 (F := Ideal) x0 x1 x2 x3 x4 x5
    = epilogue (Cert.ReferenceIdeal.ReadP.val_main_v95 (F := Ideal) x0 x1 x2 x3 x4) (shapeCast S1x128 x5 h) (Cert.ReferenceIdeal.ReadP.val_main_v52 (F := Ideal) x0 x1 x2 x3) := by
  funext i
  rw [Cert.ReferenceIdeal.ReadP.val_main_v101_apply, Cert.ReferenceIdeal.ReadP.val_main_v100_apply, Cert.ReferenceIdeal.ReadP.val_main_v98_apply, Cert.ReferenceIdeal.ReadP.val_main_v99_apply,
    Cert.ReferenceIdeal.ReadP.val_main_cst_23_apply, Cert.ReferenceIdeal.ReadP.val_main_v97_apply, Cert.ReferenceIdeal.ReadP.val_main_v96_apply]
  show _ = max (_ + shapeCast S1x128 x5 h (biasOf i)) _ + _
  rw [rowOfVector_apply x5 h i (Cert.ReferenceIdeal.ReadP.idx_main_v96 (Cert.ReferenceIdeal.ReadP.idx_main_v97 i)) rfl]
  rfl

/-- The reference's result is the head of the second layer's result, the head matrix transposed and the head's bias. -/
theorem reference_head (h : S64.ShapeCasts S1x64) : Cert.ReferenceIdeal.ReadP.val_main_v106 (F := Ideal) x0 x1 x2 x3 x4 x5 x6 x7
    = headOf (Cert.ReferenceIdeal.ReadP.val_main_v101 (F := Ideal) x0 x1 x2 x3 x4 x5) (Cert.ReferenceIdeal.ReadP.val_main_v102 (F := Ideal) x6) (shapeCast S1x64 x7 h) := by
  funext i
  rw [Cert.ReferenceIdeal.ReadP.val_main_v106_apply, Cert.ReferenceIdeal.ReadP.val_main_v103_apply, Cert.ReferenceIdeal.ReadP.val_main_v105_apply, Cert.ReferenceIdeal.ReadP.val_main_v104_apply]
  show _ = (∑ k : Fin 128, _) + shapeCast S1x64 x7 h (biasOfH i)
  rw [rowOfVectorH_apply x7 h i (Cert.ReferenceIdeal.ReadP.idx_main_v104 (Cert.ReferenceIdeal.ReadP.idx_main_v105 i)) rfl]
  rfl

end Cert.KernelIdeal.Bridges

end
-- ==== Proof.KernelStages.lean ====
/-
  What each buffer holds at each boundary between the host stretches and the five pallas_calls, as a function of the
  launch arguments: every one is a stage of the reference's own computation. The first product is x · W1ᵀ; the first
  aggregate one round of message passing over it; the first layer's result its epilogue with b1 and x; the same again
  with W2, b2 and the first layer's result as residual; the last call is the head with Wlin and blin. A buffer that a
  stretch or a call does not write keeps what it held.
-/
import proofs.«137837_j52158082842768_1_alg».proof.Proof.Gen.KernelIdeal.Frame
import proofs.«137837_j52158082842768_1_alg».proof.Proof.LinearRegions
import proofs.«137837_j52158082842768_1_alg».proof.Proof.BiasRegions
import proofs.«137837_j52158082842768_1_alg».proof.Proof.HostStretches
import proofs.«137837_j52158082842768_1_alg».proof.Proof.RefBridges

set_option maxRecDepth 16384

noncomputable section

namespace Cert.KernelIdeal.Stages

open Idealize.ShloMosaic Idealize.ShloMosaic.TcCoe Idealize.SL.Sem
open Idealize.ShloMosaic.Pipeline (Dat)
open Cert.KernelIdeal Cert.KernelIdeal.Gen
open Cert.KernelIdeal.Stretches Cert.KernelIdeal.Linear Cert.KernelIdeal.Biased Cert.KernelIdeal.Bridges

variable (m : (ℓ : Loc nD τ sig) → Buf (Elt Ideal) ℓ) (ρ : Dev nD → PrngReg) (c : Dev nD)

/-! ## After the opening stretches (entry of the first call) -/

theorem at3_v5 : W3 m ρ c (Proc.devRef .tc main_v5) = (Cert.ReferenceIdeal.ReadP.val_main_v5 (F := Ideal) (m ((c : Thread nD τ).loc main_arg1))) := opened_sources (F := Ideal) (W0 m ρ c)
theorem at3_v6 : W3 m ρ c (Proc.devRef .tc main_v6) = (Cert.ReferenceIdeal.ReadP.val_main_v6 (F := Ideal) (m ((c : Thread nD τ).loc main_arg1))) := opened_targets (F := Ideal) (W0 m ρ c)
theorem at3_v31 : W3 m ρ c (Proc.devRef .tc main_v31) = (Cert.ReferenceIdeal.ReadP.val_main_v31 (F := Ideal) (m ((c : Thread nD τ).loc main_arg1))) := opened_norm (F := Ideal) (W0 m ρ c)
theorem at3_v32 : W3 m ρ c (Proc.devRef .tc main_v32) = (Cert.ReferenceIdeal.ReadP.val_main_v32 (F := Ideal) (m ((c : Thread nD τ).loc main_arg2))) := opened_weights (F := Ideal) (W0 m ρ c)
theorem at3_arg0 : W3 m ρ c (Proc.devRef .tc main_arg0) = (m ((c : Thread nD τ).loc main_arg0)) := opened_main_arg0 (F := Ideal) (W0 m ρ c)
theorem at3_arg3 : W3 m ρ c (Proc.devRef .tc main_arg3) = (m ((c : Thread nD τ).loc main_arg3)) := opened_main_arg3 (F := Ideal) (W0 m ρ c)
theorem at3_arg4 : W3 m ρ c (Proc.devRef .tc main_arg4) = (m ((c : Thread nD τ).loc main_arg4)) := opened_main_arg4 (F := Ideal) (W0 m ρ c)
theorem at3_arg5 : W3 m ρ c (Proc.devRef .tc main_arg5) = (m ((c : Thread nD τ).loc main_arg5)) := opened_main_arg5 (F := Ideal) (W0 m ρ c)
theorem at3_arg6 : W3 m ρ c (Proc.devRef .tc main_arg6) = (m ((c : Thread nD τ).loc main_arg6)) := opened_main_arg6 (F := Ideal) (W0 m ρ c)
theorem at3_arg7 : W3 m ρ c (Proc.devRef .tc main_arg7) = (m ((c : Thread nD τ).loc main_arg7)) := opened_main_arg7 (F := Ideal) (W0 m ρ c)

/-! ## After the first call: the first product -/

theorem at4_v33 : W4 m ρ c (Proc.devRef .tc main_v33) = (Cert.ReferenceIdeal.ReadP.val_main_v33 (F := Ideal) (m ((c : Thread nD τ).loc main_arg0)) (m ((c : Thread nD τ).loc main_arg2))) := by
  refine (W4_arr m ρ c 2).trans ((result0 (V3 m ρ) c).trans ?_)
  show rowsTimes (W3 m ρ c (Proc.devRef .tc main_arg0)) (W3 m ρ c (Proc.devRef .tc main_v32)) = _
  rw [at3_arg0 m ρ c, at3_v32 m ρ c]
  exact (reference_product1 (m ((c : Thread nD τ).loc main_arg0)) (m ((c : Thread nD τ).loc main_arg2))).symm
theorem at4_arg0 : W4 m ρ c (Proc.devRef .tc main_arg0) = (m ((c : Thread nD τ).loc main_arg0)) :=
  ((W4_arr m ρ c 0).trans (((dat0 (V3 m ρ) c).arrAt_in 0 rfl _).trans (A_eq0 (V3 m ρ) c 0))).trans (at3_arg0 m ρ c)
theorem at4_v5 : W4 m ρ c (Proc.devRef .tc main_v5) = (Cert.ReferenceIdeal.ReadP.val_main_v5 (F := Ideal) (m ((c : Thread nD τ).loc main_arg1))) :=
  (W4_of_ne m ρ c main_v5 (by decide)).trans (at3_v5 m ρ c)
theorem at4_v6 : W4 m ρ c (Proc.devRef .tc main_v6) = (Cert.ReferenceIdeal.ReadP.val_main_v6 (F := Ideal) (m ((c : Thread nD τ).loc main_arg1))) :=
  (W4_of_ne m ρ c main_v6 (by decide)).trans (at3_v6 m ρ c)
theorem at4_v31 : W4 m ρ c (Proc.devRef .tc main_v31) = (Cert.ReferenceIdeal.ReadP.val_main_v31 (F := Ideal) (m ((c : Thread nD τ).loc main_arg1))) :=
  (W4_of_ne m ρ c main_v31 (by decide)).trans (at3_v31 m ρ c)
theorem at4_arg3 : W4 m ρ c (Proc.devRef .tc main_arg3) = (m ((c : Thread nD τ).loc main_arg3)) :=
  (W4_of_ne m ρ c main_arg3 (by decide)).trans (at3_arg3 m ρ c)
theorem at4_arg4 : W4 m ρ c (Proc.devRef .tc main_arg4) = (m ((c : Thread nD τ).loc main_arg4)) :=
  (W4_of_ne m ρ c main_arg4 (by decide)).trans (at3_arg4 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)

/-! ## Entry of the second call: the first aggregate and the first bias as a row -/

theorem at5_v46 : W5 m ρ c (Proc.devRef .tc main_v46) = (Cert.ReferenceIdeal.ReadP.val_main_v46 (F := Ideal) (m ((c : Thread nD τ).loc main_arg0)) (m ((c : Thread nD τ).loc main_arg1)) (m ((c : Thread nD τ).loc main_arg2))) := by
  have h := mid1_aggregate (F := Ideal) (W4 m ρ c)
  rw [at4_v33 m ρ c, at4_v5 m ρ c, at4_v6 m ρ c, at4_v31 m ρ c] at h
  exact h.trans (reference_aggregate1 (F := Ideal) (m ((c : Thread nD τ).loc main_arg0)) (m ((c : Thread nD τ).loc main_arg1)) (m ((c : Thread nD τ).loc main_arg2))).symm
theorem at5_v47 : W5 m ρ c (Proc.devRef .tc main_v47) = (shapeCast S1x128 (m ((c : Thread nD τ).loc main_arg3)) Facts₀.shapeCasts_S128_S1x128) := by
  have h := mid1_bias (F := Ideal) (W4 m ρ c)
  rw [at4_arg3 m ρ c] at h
  exact h
theorem at5_arg0 : W5 m ρ c (Proc.devRef .tc main_arg0) = (m ((c : Thread nD τ).loc main_arg0)) :=
  (mid1_main_arg0 (F := Ideal) (W4 m ρ c)).trans (at4_arg0 m ρ c)
theorem at5_v5 : W5 m ρ c (Proc.devRef .tc main_v5) = (Cert.ReferenceIdeal.ReadP.val_main_v5 (F := Ideal) (m ((c : Thread nD τ).loc main_arg1))) :=
  (mid1_main_v5 (F := Ideal) (W4 m ρ c)).trans (at4_v5 m ρ c)
theorem at5_v6 : W5 m ρ c (Proc.devRef .tc main_v6) = (Cert.ReferenceIdeal.ReadP.val_main_v6 (F := Ideal) (m ((c : Thread nD τ).loc main_arg1))) :=
  (mid1_main_v6 (F := Ideal) (W4 m ρ c)).trans (at4_v6 m ρ c)
theorem at5_v31 : W5 m ρ c (Proc.devRef .tc main_v31) = (Cert.ReferenceIdeal.ReadP.val_main_v31 (F := Ideal) (m ((c : Thread nD τ).loc main_arg1))) :=
  (mid1_main_v31 (F := Ideal) (W4 m ρ c)).trans (at4_v31 m ρ c)
theorem at5_arg4 : W5 m ρ c (Proc.devRef .tc main_arg4) = (m ((c : Thread nD τ).loc main_arg4)) :=
  (mid1_main_arg4 (F := Ideal) (W4 m ρ c)).trans (at4_arg4 m ρ c)
theorem at5_arg5 : W5 m ρ c (Proc.devRef .tc main_arg5) = (m ((c : Thread nD τ).loc main_arg5)) :=
  (mid1_main_arg5 (F := Ideal) (W4 m ρ c)).trans (at4_arg5 m ρ c)
theorem at5_arg6 : W5 m ρ c (Proc.devRef .tc main_arg6) = (m ((c : Thread nD τ).loc main_arg6)) :=
  (mid1_main_arg6 (F := Ideal) (W4 m ρ c)).trans (at4_arg6 m ρ c)
theorem at5_arg7 : W5 m ρ c (Proc.devRef .tc main_arg7) = (m ((c : Thread nD τ).loc main_arg7)) :=
  (mid1_main_arg7 (F := Ideal) (W4 m ρ c)).trans (at4_arg7 m ρ c)

/-! ## After the second call: the first layer's result -/

theorem at6_v48 : W6 m ρ c (Proc.devRef .tc main_v48) = (Cert.ReferenceIdeal.ReadP.val_main_v52 (F := Ideal) (m ((c : Thread nD τ).loc main_arg0)) (m ((c : Thread nD τ).loc main_arg1)) (m ((c : Thread nD τ).loc main_arg2)) (m ((c : Thread nD τ).loc main_arg3))) := by
  refine (W6_arr m ρ c 3).trans ((result1 (V5 m ρ) c).trans ?_)
  show epilogue (W5 m ρ c (Proc.devRef .tc main_v46)) (W5 m ρ c (Proc.devRef .tc main_v47)) (W5 m ρ c (Proc.devRef .tc main_arg0)) = _
  rw [at5_v46 m ρ c, at5_v47 m ρ c, at5_arg0 m ρ c]
  exact (reference_layer1 (m ((c : Thread nD τ).loc main_arg0)) (m ((c : Thread nD τ).loc main_arg1)) (m ((c : Thread nD τ).loc main_arg2)) (m ((c : Thread nD τ).loc main_arg3)) Facts₀.shapeCasts_S128_S1x128).symm
theorem at6_v5 : W6 m ρ c (Proc.devRef .tc main_v5) = (Cert.ReferenceIdeal.ReadP.val_main_v5 (F := Ideal) (m ((c : Thread nD τ).loc main_arg1))) :=
  (W6_of_ne m ρ c main_v5 (by decide)).trans (at5_v5 m ρ c)
theorem at6_v6 : W6 m ρ c (Proc.devRef .tc main_v6) = (Cert.ReferenceIdeal.ReadP.val_main_v6 (F := Ideal) (m ((c : Thread nD τ).loc main_arg1))) :=
  (W6_of_ne m ρ c main_v6 (by decide)).trans (at5_v6 m ρ c)
theorem at6_v31 : W6 m ρ c (Proc.devRef .tc main_v31) = (Cert.ReferenceIdeal.ReadP.val_main_v31 (F := Ideal) (m ((c : Thread nD τ).loc main_arg1))) :=
  (W6_of_ne m ρ c main_v31 (by decide)).trans (at5_v31 m ρ c)
theorem at6_arg4 : W6 m ρ c (Proc.devRef .tc main_arg4) = (m ((c : Thread nD τ).loc main_arg4)) :=
  (W6_of_ne m ρ c main_arg4 (by decide)).trans (at5_arg4 m ρ c)
theorem at6_arg5 : W6 m ρ c (Proc.devRef .tc main_arg5) = (m ((c : Thread nD τ).loc main_arg5)) :=
  (W6_of_ne m ρ c main_arg5 (by decide)).trans (at5_arg5 m ρ c)
theorem at6_arg6 : W6 m ρ c (Proc.devRef .tc main_arg6) = (m ((c : Thread nD τ).loc main_arg6)) :=
  (W6_of_ne m ρ c main_arg6 (by decide)).trans (at5_arg6 m ρ c)
theorem at6_arg7 : W6 m ρ c (Proc.devRef .tc main_arg7) = (m ((c : Thread nD τ).loc main_arg7)) :=
  (W6_of_ne m ρ c main_arg7 (by decide)).trans (at5_arg7 m ρ c)

/-! ## Entry of the third call: the second weight matrix transposed -/

theorem at7_v49 : W7 m ρ c (Proc.devRef .tc main_v49) = (Cert.ReferenceIdeal.ReadP.val_main_v81 (F := Ideal) (m ((c : Thread nD τ).loc main_arg4))) := by
  have h := mid2_weights (F := Ideal) (W6 m ρ c)
  rw [at6_arg4 m ρ c] at h
  exact h
theorem at7_v48 : W7 m ρ c (Proc.devRef .tc main_v48) = (Cert.ReferenceIdeal.ReadP.val_main_v52 (F := Ideal) (m ((c : Thread nD τ).loc main_arg0)) (m ((c : Thread nD τ).loc main_arg1)) (m ((c : Thread nD τ).loc main_arg2)) (m ((c : Thread nD τ).loc main_arg3))) :=
  (mid2_main_v48 (F := Ideal) (W6 m ρ c)).trans (at6_v48 m ρ c)
theorem at7_v5 : W7 m ρ c (Proc.devRef .tc main_v5) = (Cert.ReferenceIdeal.ReadP.val_main_v5 (F := Ideal) (m ((c : Thread nD τ).loc main_arg1))) :=
  (mid2_main_v5 (F := Ideal) (W6 m ρ c)).trans (at6_v5 m ρ c)
theorem at7_v6 : W7 m ρ c (Proc.devRef .tc main_v6) = (Cert.ReferenceIdeal.ReadP.val_main_v6 (F := Ideal) (m ((c : Thread nD τ).loc main_arg1))) :=
  (mid2_main_v6 (F := Ideal) (W6 m ρ c)).trans (at6_v6 m ρ c)
theorem at7_v31 : W7 m ρ c (Proc.devRef .tc main_v31) = (Cert.ReferenceIdeal.ReadP.val_main_v31 (F := Ideal) (m ((c : Thread nD τ).loc main_arg1))) :=
  (mid2_main_v31 (F := Ideal) (W6 m ρ c)).trans (at6_v31 m ρ c)
theorem at7_arg5 : W7 m ρ c (Proc.devRef .tc main_arg5) = (m ((c : Thread nD τ).loc main_arg5)) :=
  (mid2_main_arg5 (F := Ideal) (W6 m ρ c)).trans (at6_arg5 m ρ c)
theorem at7_arg6 : W7 m ρ c (Proc.devRef .tc main_arg6) = (m ((c : Thread nD τ).loc main_arg6)) :=
  (mid2_main_arg6 (F := Ideal) (W6 m ρ c)).trans (at6_arg6 m ρ c)
theorem at7_arg7 : W7 m ρ c (Proc.devRef .tc main_arg7) = (m ((c : Thread nD τ).loc main_arg7)) :=
  (mid2_main_arg7 (F := Ideal) (W6 m ρ c)).trans (at6_arg7 m ρ c)

/-! ## After the third call: the second product -/

theorem at8_v50 : W8 m ρ c (Proc.devRef .tc main_v50) = (Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (W8_arr m ρ c 2).trans ((result2 (V7 m ρ) c).trans ?_)
  show rowsTimes (W7 m ρ c (Proc.devRef .tc main_v48)) (W7 m ρ c (Proc.devRef .tc main_v49)) = _
  rw [at7_v48 m ρ c, at7_v49 m ρ c]
  exact (reference_product2 (m ((c : Thread nD τ).loc main_arg0)) (m ((c : Thread nD τ).loc main_arg1)) (m ((c : Thread nD τ).loc main_arg2)) (m ((c : Thread nD τ).loc main_arg3)) (m ((c : Thread nD τ).loc main_arg4))).symm
theorem at8_v48 : W8 m ρ c (Proc.devRef .tc main_v48) = (Cert.ReferenceIdeal.ReadP.val_main_v52 (F := Ideal) (m ((c : Thread nD τ).loc main_arg0)) (m ((c : Thread nD τ).loc main_arg1)) (m ((c : Thread nD τ).loc main_arg2)) (m ((c : Thread nD τ).loc main_arg3))) :=
  ((W8_arr m ρ c 0).trans (((dat2 (V7 m ρ) c).arrAt_in 0 rfl _).trans (A_eq2 (V7 m ρ) c 0))).trans (at7_v48 m ρ c)
theorem at8_v5 : W8 m ρ c (Proc.devRef .tc main_v5) = (Cert.ReferenceIdeal.ReadP.val_main_v5 (F := Ideal) (m ((c : Thread nD τ).loc main_arg1))) :=
  (W8_of_ne m ρ c main_v5 (by decide)).trans (at7_v5 m ρ c)
theorem at8_v6 : W8 m ρ c (Proc.devRef .tc main_v6) = (Cert.ReferenceIdeal.ReadP.val_main_v6 (F := Ideal) (m ((c : Thread nD τ).loc main_arg1))) :=
  (W8_of_ne m ρ c main_v6 (by decide)).trans (at7_v6 m ρ c)
theorem at8_v31 : W8 m ρ c (Proc.devRef .tc main_v31) = (Cert.ReferenceIdeal.ReadP.val_main_v31 (F := Ideal) (m ((c : Thread nD τ).loc main_arg1))) :=
  (W8_of_ne m ρ c main_v31 (by decide)).trans (at7_v31 m ρ c)
theorem at8_arg5 : W8 m ρ c (Proc.devRef .tc main_arg5) = (m ((c : Thread nD τ).loc main_arg5)) :=
  (W8_of_ne m ρ c main_arg5 (by decide)).trans (at7_arg5 m ρ c)
theorem at8_arg6 : W8 m ρ c (Proc.devRef .tc main_arg6) = (m ((c : Thread nD τ).loc main_arg6)) :=
  (W8_of_ne m ρ c main_arg6 (by decide)).trans (at7_arg6 m ρ c)
theorem at8_arg7 : W8 m ρ c (Proc.devRef .tc main_arg7) = (m ((c : Thread nD τ).loc main_arg7)) :=
  (W8_of_ne m ρ c main_arg7 (by decide)).trans (at7_arg7 m ρ c)

/-! ## Entry of the fourth call: the second aggregate and the second bias as a row -/

theorem at9_v63 : W9 m ρ c (Proc.devRef .tc main_v63) = (Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have h := mid3_aggregate (F := Ideal) (W8 m ρ c)
  rw [at8_v50 m ρ c, at8_v5 m ρ c, at8_v6 m ρ c, at8_v31 m ρ c] at h
  exact h.trans (reference_aggregate2 (F := Ideal) (m ((c : Thread nD τ).loc main_arg0)) (m ((c : Thread nD τ).loc main_arg1)) (m ((c : Thread nD τ).loc main_arg2)) (m ((c : Thread nD τ).loc main_arg3)) (m ((c : Thread nD τ).loc main_arg4))).symm
theorem at9_v64 : W9 m ρ c (Proc.devRef .tc main_v64) = (shapeCast S1x128 (m ((c : Thread nD τ).loc main_arg5)) Facts₀.shapeCasts_S128_S1x128) := by
  have h := mid3_bias (F := Ideal) (W8 m ρ c)
  rw [at8_arg5 m ρ c] at h
  exact h
theorem at9_v48 : W9 m ρ c (Proc.devRef .tc main_v48) = (Cert.ReferenceIdeal.ReadP.val_main_v52 (F := Ideal) (m ((c : Thread nD τ).loc main_arg0)) (m ((c : Thread nD τ).loc main_arg1)) (m ((c : Thread nD τ).loc main_arg2)) (m ((c : Thread nD τ).loc main_arg3))) :=
  (mid3_main_v48 (F := Ideal) (W8 m ρ c)).trans (at8_v48 m ρ c)
theorem at9_arg6 : W9 m ρ c (Proc.devRef .tc main_arg6) = (m ((c : Thread nD τ).loc main_arg6)) :=
  (mid3_main_arg6 (F := Ideal) (W8 m ρ c)).trans (at8_arg6 m ρ c)
theorem at9_arg7 : W9 m ρ c (Proc.devRef .tc main_arg7) = (m ((c : Thread nD τ).loc main_arg7)) :=
  (mid3_main_arg7 (F := Ideal) (W8 m ρ c)).trans (at8_arg7 m ρ c)

/-! ## After the fourth call: the second layer's result -/

theorem at10_v65 : W10 m ρ c (Proc.devRef .tc main_v65) = (Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W10_arr m ρ c 3).trans ((result3 (V9 m ρ) c).trans ?_)
  show epilogue (W9 m ρ c (Proc.devRef .tc main_v63)) (W9 m ρ c (Proc.devRef .tc main_v64)) (W9 m ρ c (Proc.devRef .tc main_v48)) = _
  rw [at9_v63 m ρ c, at9_v64 m ρ c, at9_v48 m ρ c]
  exact (reference_layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) Facts₀.shapeCasts_S128_S1x128).symm
theorem at10_arg6 : W10 m ρ c (Proc.devRef .tc main_arg6) = (m ((c : Thread nD τ).loc main_arg6)) :=
  (W10_of_ne m ρ c main_arg6 (by decide)).trans (at9_arg6 m ρ c)
theorem at10_arg7 : W10 m ρ c (Proc.devRef .tc main_arg7) = (m ((c : Thread nD τ).loc main_arg7)) :=
  (W10_of_ne m ρ c main_arg7 (by decide)).trans (at9_arg7 m ρ c)

/-! ## Entry of the fifth call: the head matrix transposed and the head's bias as a row -/

theorem at11_v66 : W11 m ρ c (Proc.devRef .tc main_v66) = (Cert.ReferenceIdeal.ReadP.val_main_v102 (F := Ideal) (m ((c : Thread nD τ).loc main_arg6))) := by
  have h := mid4_weights (F := Ideal) (W10 m ρ c)
  rw [at10_arg6 m ρ c] at h
  exact h
theorem at11_v67 : W11 m ρ c (Proc.devRef .tc main_v67) = (shapeCast S1x64 (m ((c : Thread nD τ).loc main_arg7)) Facts₀.shapeCasts_S64_S1x64) := by
  have h := mid4_bias (F := Ideal) (W10 m ρ c)
  rw [at10_arg7 m ρ c] at h
  exact h
theorem at11_v65 : W11 m ρ c (Proc.devRef .tc main_v65) = (Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (mid4_main_v65 (F := Ideal) (W10 m ρ c)).trans (at10_v65 m ρ c)

/-! ## After the fifth call: the program's result -/

/-- The result buffer ends at the reference's result term of the launch arguments. -/
theorem result_value : W12 m ρ c (Proc.devRef .tc main_v68) = (Cert.ReferenceIdeal.ReadP.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W12_arr m ρ c 3).trans ((result4 (V11 m ρ) c).trans ?_)
  show headOf (W11 m ρ c (Proc.devRef .tc main_v65)) (W11 m ρ c (Proc.devRef .tc main_v66)) (W11 m ρ c (Proc.devRef .tc main_v67)) = _
  rw [at11_v65 m ρ c, at11_v66 m ρ c, at11_v67 m ρ c]
  exact (reference_head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) Facts₀.shapeCasts_S64_S1x64).symm

end Cert.KernelIdeal.Stages

end
-- ==== Proof.lean ====
/-
  A two-layer graph convolution with a linear head, against its jnp reference.

  Both programs add a self-loop to every node, count each node's in-degree deg, take dis = deg^(-1/2) where deg > 0 and
  norm(e) = dis[s(e)] · dis[d(e)] per edge, and then, per layer with weights W and bias b and input h,
      h' = max (Σ_{e : d(e) = ·} (h Wᵀ)[s(e)] · norm(e) + b, 0) + h,
  and finally return h'' Wlinᵀ + blin. The kernel computes h Wᵀ, the "bias, clip, residual" step and the head in five
  pallas_calls over twenty blocks of 5000 rows each (its matrix products fed through bf16, which is the identity on the
  extended reals); the gathers and scatter-adds in between are the same host operations in both programs. The reference
  recomputes deg, dis and norm in the second layer by the same operations.

  So, buffer by buffer, each of the kernel's intermediate arrays is a stage of the reference's computation of the same
  arguments: a block-wise product is the whole product (a sum over k < 128 per entry, whatever the row block), the
  block-wise epilogue is the pointwise epilogue, and a bias reshaped to a row and broadcast down a block is the bias
  broadcast over the whole array. No law beyond reading both sides entry by entry is used, so finiteness of the inputs is
  never opened. Nothing was rewritten in the idealization, so that claim is trivial.
-/
import proofs.«137837_j52158082842768_1_alg».proof.Defs
import proofs.«137837_j52158082842768_1_alg».proof.Proof.Gen.Kernel
import proofs.«137837_j52158082842768_1_alg».proof.Proof.Gen.Kernel.Skeleton
import proofs.«137837_j52158082842768_1_alg».proof.Proof.Gen.Kernel.Launch
import proofs.«137837_j52158082842768_1_alg».proof.Proof.Gen.Kernel.Points
import proofs.«137837_j52158082842768_1_alg».proof.Proof.Gen.Kernel.Frame
import proofs.«137837_j52158082842768_1_alg».proof.Proof.Gen.KernelIdeal
import proofs.«137837_j52158082842768_1_alg».proof.Proof.Gen.KernelIdeal.Skeleton
import proofs.«137837_j52158082842768_1_alg».proof.Proof.Gen.KernelIdeal.Launch
import proofs.«137837_j52158082842768_1_alg».proof.Proof.Gen.KernelIdeal.Points
import proofs.«137837_j52158082842768_1_alg».proof.Proof.Gen.KernelIdeal.Frame
import proofs.«137837_j52158082842768_1_alg».proof.Proof.Gen.ReferenceIdeal
import proofs.«137837_j52158082842768_1_alg».proof.Proof.Gen.Pre_finite_inputs
import proofs.«137837_j52158082842768_1_alg».proof.Proof.KernelRun
import proofs.«137837_j52158082842768_1_alg».proof.Proof.KernelStages
import proofs.«137837_j52158082842768_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Over the extended reals, from memories that agree on the eight arguments, both programs end with the same result:
    the kernel's result buffer holds the reference's result term of the arguments (`Stages.result_value`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v68), Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v106_eq]
  obtain ⟨h0, h1, h2, h3, h4, h5, h6, h7⟩ := hagree c
  rw [h0, h1, h2, h3, h4, h5, h6, h7]
  exact (Cert.KernelIdeal.Stages.result_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
